-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S1x50000 : Shape := ⟨2, ![1, 50000]⟩
abbrev S1 : Shape := ⟨1, ![1]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x50000 : S_.BroadcastsInDim S1x50000 (![] : Fin 0 → Fin S1x50000.rank)
  reducesTo_S1x50000_S_d0_1 : S1x50000.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg7 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v33 main_v36
  let main_c_14 : IVec S_ 32 := constantI S_ 32 50000#32
  let main_v38 : IVec S800000 32 := broadcastInDim S800000 ![] bcast_S_S800000 main_c_14
  let main_v39 : IVec S800000 1 := cmpi .slt main_arg7 main_v38
  let main_c_15 : IVec S_ 1 := constantI S_ 1 1#1
  let main_v40 : IVec S_ 1 := (fun x v => Host.reduce IntOp.andi x v reducesTo_S800000_S_d0 h_S_) main_v39 main_c_15
  let main_v41 : IVec S_ 1 := andi main_v37 main_v40
  main_v41

def fn_part1 {F : FTy → Type} [FloatOps F] (main_arg4 : FVec F S64 .f32) (main_arg5 : FVec F S1x50000 .f32) (main_arg6 : FVec F S1 .f32) (main_arg7 : IVec S800000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x50000 .f32 := Host.absf main_arg5
  let main_cst_8 : FVec F S_ .f32 := constant S_ .f32 0x7F800000#32
  let main_v25 : FVec F S1x50000 .f32 := broadcastInDim S1x50000 ![] bcast_S_S1x50000 main_cst_8
  let main_v26 : IVec S1x50000 1 := cmpf .olt main_v24 main_v25
  let main_c_9 : IVec S_ 1 := constantI S_ 1 1#1
  let main_v27 : IVec S_ 1 := (fun x v => Host.reduce IntOp.andi x v reducesTo_S1x50000_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : FVec F S1x50000 .f32) (main_arg6 : FVec F S1 .f32) (main_arg7 : IVec S800000 32) (main_arg8 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S50000x64 : Shape := ⟨2, ![50000, 64]⟩
abbrev S64x64 : Shape := ⟨2, ![64, 64]⟩
abbrev S64 : Shape := ⟨1, ![64]⟩
abbrev S1x50000 : Shape := ⟨2, ![1, 50000]⟩
abbrev S1 : Shape := ⟨1, ![1]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50048x64 : Shape := ⟨2, ![50048, 64]⟩
abbrev S2944x64 : Shape := ⟨2, ![2944, 64]⟩
abbrev S1x64 : Shape := ⟨2, ![1, 64]⟩
abbrev S64x1 : Shape := ⟨2, ![64, 1]⟩
abbrev S1x1 : Shape := ⟨2, ![1, 1]⟩

abbrev nBuf : Space → Nat
  | .hbm => 61
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x50000, .f32⟩
  | .hbm, ⟨6, _⟩ => ⟨S1, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .i32⟩
  | .hbm, ⟨23, _⟩ => ⟨S_, .f32⟩
  | .hbm, ⟨24, _⟩ => ⟨S50048x64, .f32⟩
  | .hbm, ⟨25, _⟩ => ⟨S64x64, .f32⟩
  | .hbm, ⟨26, _⟩ => ⟨S64x64, .bf16⟩
  | .hbm, ⟨27, _⟩ => ⟨S50048x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S_, .i32⟩
  | .hbm, ⟨42, _⟩ => ⟨S_, .f32⟩
  | .hbm, ⟨43, _⟩ => ⟨S50048x64, .f32⟩
  | .hbm, ⟨44, _⟩ => ⟨S64x64, .f32⟩
  | .hbm, ⟨45, _⟩ => ⟨S64x64, .bf16⟩
  | .hbm, ⟨46, _⟩ => ⟨S50048x64, .f32⟩
  | .hbm, ⟨47, _⟩ => ⟨S50000x64, .f32⟩
  | .hbm, ⟨48, _⟩ => ⟨S1x64, .f32⟩
  | .hbm, ⟨49, _⟩ => ⟨S64x1, .f32⟩
  | .hbm, ⟨50, _⟩ => ⟨S1x1, .f32⟩
  | .hbm, ⟨51, _⟩ => ⟨S64x1, .f32⟩
  | .hbm, ⟨52, _⟩ => ⟨S64x1, .f32⟩
  | .hbm, ⟨53, _⟩ => ⟨S64x1, .f32⟩
  | .hbm, ⟨54, _⟩ => ⟨S64x1, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S_, .f32⟩
  | .hbm, ⟨59, _⟩ => ⟨S64x1, .f32⟩
  | .hbm, ⟨60, _⟩ => ⟨S64x1, .f32⟩
  | .local _ .vmem, ⟨0, _⟩ => ⟨S2944x64, .f32⟩
  | .local _ .vmem, ⟨1, _⟩ => ⟨S2944x64, .f32⟩
  | .local _ .vmem, ⟨2, _⟩ => ⟨S64x64, .bf16⟩
  | .local _ .vmem, ⟨3, _⟩ => ⟨S64, .f32⟩
  | .local _ .vmem, ⟨4, _⟩ => ⟨S2944x64, .f32⟩
  | .local _ .vmem, ⟨5, _⟩ => ⟨S2944x64, .f32⟩
  | .local _ .vmem, ⟨6, _⟩ => ⟨S2944x64, .f32⟩
  | .local _ .vmem, ⟨7, _⟩ => ⟨S2944x64, .f32⟩
  | .local _ .vmem, ⟨8, _⟩ => ⟨S64x64, .bf16⟩
  | .local _ .vmem, ⟨9, _⟩ => ⟨S64, .f32⟩
  | .local _ .vmem, ⟨10, _⟩ => ⟨S2944x64, .f32⟩
  | .local _ .vmem, ⟨11, _⟩ => ⟨S2944x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2944x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2944x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2944x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2944x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  pads_S50000x64_S50048x64_0480_000 : S50000x64.Pads (![0, 0] : Fin 2 → Nat) ![48, 0] ![0, 0] S50048x64
  h_S_ : 0 < S_.numel
  transposes_S64x64_S64x64_1_0 : S64x64.Transposes [1, 0] S64x64
  bitsLt_bf16_f32 : FTy.bits .bf16 < FTy.bits .f32
  inb_S2944x64_S2944x64_0_0 : ∀ a, (![0, 0] : Fin 2 → Nat) a + S2944x64.size a ≤ S2944x64.size a
  h_S2944x64 : 0 < S2944x64.numel
  shapeCasts_S2944x64_S2944x64 : S2944x64.ShapeCasts S2944x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2944x64 : S1x64.Broadcasts S2944x64
  slices_S50048x64_S50000x64_0_0 : S50048x64.Slices ![0, 0] S50000x64
  transposes_S1x64_S64x1_1_0 : S1x64.Transposes [1, 0] S64x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2944x64_S64x64_S2944x64_1_0_0_1_n_n_wf : DotDims.WF S2944x64 S64x64 S2944x64 [1] [0] [0] [1] [] []
  gather_S50048x64_S800000x1_S800000x64_1_0_n_n_0_1_164_wf : GatherDims.WF S50048x64 S800000x1 S800000x64 [1] [0] [] [0] [] 1 ![1, 64]
  dot_S1x50000_S50000x64_S1x64_1_0_0_1_n_n_wf : DotDims.WF S1x50000 S50000x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2944x64.size a ≤ S50048x64.size a
  hwx0_0 : ∀ i : grid0.Coords, EltTy.bits .f32 = 32 ∨ (Rect.block (s := S50048x64) S2944x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2944x64.size a ≤ S50048x64.size a
  hwx0_3 : ∀ i : grid0.Coords, EltTy.bits .f32 = 32 ∨ (Rect.block (s := S50048x64) S2944x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2944x64.size a ≤ S50048x64.size a
  hwx1_0 : ∀ i : grid1.Coords, EltTy.bits .f32 = 32 ∨ (Rect.block (s := S50048x64) S2944x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2944x64.size a ≤ S50048x64.size a
  hwx1_3 : ∀ i : grid1.Coords, EltTy.bits .f32 = 32 ∨ (Rect.block (s := S50048x64) S2944x64.size (cc1_transform_3 i) (hinb1_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2944x64_S64x64_S2944x64_1_0_0_1_n_n : DotDims S2944x64 S64x64 S2944x64 where
  lhsContracting := [1]
  rhsContracting := [0]
  lhsNonContracting := [0]
  rhsNonContracting := [1]
  lhsBatch := []
  rhsBatch := []
  wf := dot_S2944x64_S64x64_S2944x64_1_0_0_1_n_n_wf
def gather_S50048x64_S800000x1_S800000x64_1_0_n_n_0_1_164 : GatherDims S50048x64 S800000x1 S800000x64 where
  offsetDims := [1]
  collapsedSliceDims := [0]
  operandBatchingDims := []
  startIndicesBatchingDims := []
  startIndexMap := [0]
  indexVectorDim := 1
  sliceSizes := ![1, 64]
  wf := gather_S50048x64_S800000x1_S800000x64_1_0_n_n_0_1_164_wf
def dot_S1x50000_S50000x64_S1x64_1_0_0_1_n_n : DotDims S1x50000 S50000x64 S1x64 where
  lhsContracting := [1]
  rhsContracting := [0]
  lhsNonContracting := [0]
  rhsNonContracting := [1]
  lhsBatch := []
  rhsBatch := []
  wf := dot_S1x50000_S50000x64_S1x64_1_0_0_1_n_n_wf

abbrev win0_0 : Pipeline.Window sig grid0 :=
  Pipeline.Window.ofSpec (Memref.whole main_v10) S2944x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2944x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2944x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2944x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S1x50000 : Shape := ⟨2, ![1, 50000]⟩
abbrev S1 : Shape := ⟨1, ![1]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S64x50000 : Shape := ⟨2, ![64, 50000]⟩
abbrev S50000x1 : Shape := ⟨2, ![50000, 1]⟩
abbrev S64x1 : Shape := ⟨2, ![64, 1]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x50000, .f32⟩
  | .hbm, ⟨6, _⟩ => ⟨S1, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S64x64, .f32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S_, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S64x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S64x50000, .f32⟩
  | .hbm, ⟨49, _⟩ => ⟨S50000x1, .f32⟩
  | .hbm, ⟨50, _⟩ => ⟨S64x1, .f32⟩
  | .hbm, ⟨51, _⟩ => ⟨S1x1, .f32⟩
  | .hbm, ⟨52, _⟩ => ⟨S64x1, .f32⟩
  | .hbm, ⟨53, _⟩ => ⟨S64x1, .f32⟩
  | .hbm, ⟨54, _⟩ => ⟨S64x1, .f32⟩
  | .hbm, ⟨55, _⟩ => ⟨S64x1, .f32⟩
  | .hbm, ⟨56, _⟩ => ⟨S_, .f32⟩
  | .hbm, ⟨57, _⟩ => ⟨S64x1, .f32⟩
  | .hbm, ⟨58, _⟩ => ⟨S64x1, .f32⟩
  | .hbm, ⟨59, _⟩ => ⟨S_, .f32⟩
  | .hbm, ⟨60, _⟩ => ⟨S64x1, .f32⟩
  | .hbm, ⟨61, _⟩ => ⟨S64x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S50000x64_S64x50000_1_0 : S50000x64.Transposes [1, 0] S64x50000
  transposes_S1x50000_S50000x1_1_0 : S1x50000.Transposes [1, 0] S50000x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S64x50000_S50000x1_S64x1_1_0_0_1_n_n_wf : DotDims.WF S64x50000 S50000x1 S64x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S64x50000_S50000x1_S64x1_1_0_0_1_n_n : DotDims S64x50000 S50000x1 S64x1 where
  lhsContracting := [1]
  rhsContracting := [0]
  lhsNonContracting := [0]
  rhsNonContracting := [1]
  lhsBatch := []
  rhsBatch := []
  wf := dot_S64x50000_S50000x1_S64x1_1_0_0_1_n_n_wf

class Facts : Prop extends Facts₀ where

variable [Facts]
-- ==== Proof.Terms.lean ====
/-
  The kernel program's host arithmetic, as pure functions of whole arrays.

  Around its two linear-layer regions the program works on the host: it sums the source rows of the edges into their
  destination rows (a row gather followed by a row scatter-add into zeros), appends 48 zero rows so that the 50048 rows
  split into 17 blocks of 2944, transposes a weight matrix and narrows it to bf16, and at the end drops the appended
  rows, contracts the node axis against the last weight row and applies the logistic function.  Each of these is
  named here once, so that the values the regions are entered with and the final result can be stated over them.
-/
import proofs.«427391_j62285615726745_2_alg».proof.Proof.Gen.KernelIdeal
import Idealize.ShloMosaic.Lib.ValueIdx

noncomputable section

namespace Cert.Gcn

open Idealize.ShloMosaic Idealize.ShloMosaic.ValueIdx Cert.KernelIdeal
open Cert.KernelIdeal.Facts₀ Cert.KernelIdeal.Facts

variable {F : FTy → Type} [FloatOps F]

/-- The start rows of a row gather from a table of `n` rows: a negative edge end is counted from the table's end. -/
def rowIdx (n : BitVec 32) (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 n))) src)

/-- The rows `upd` summed into the rows `dst` names, over zeros. -/
def segSum (dst : (⟨S800000, .i32⟩ : BufTy).Contents (Elt F)) (upd : (⟨S800000x64, .f32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) upd

/-- Layer 1's neighbour sums: the rows of the features at the edges' sources, summed at the edges' destinations. -/
def agg1 (x : (⟨S50000x64, .f32⟩ : BufTy).Contents (Elt F)) (src dst : (⟨S800000, .i32⟩ : BufTy).Contents (Elt F)) :
    (⟨S50000x64, .f32⟩ : BufTy).Contents (Elt F) :=
  segSum dst (Host.gather gather_S50000x64_S800000x1_S800000x64_1_0_n_n_0_1_164 x (rowIdx 50000#32 src))

/-- Layer 2's neighbour sums, gathered from the 50048-row output of the first region. -/
def agg2 (h : (⟨S50048x64, .f32⟩ : BufTy).Contents (Elt F)) (src dst : (⟨S800000, .i32⟩ : BufTy).Contents (Elt F)) :
    (⟨S50000x64, .f32⟩ : BufTy).Contents (Elt F) :=
  segSum dst (Host.gather gather_S50048x64_S800000x1_S800000x64_1_0_n_n_0_1_164 h (rowIdx 50048#32 src))

/-- 48 rows of the integer zero converted to a float appended below the 50000. -/
def padRows (a : (⟨S50000x64, .f32⟩ : BufTy).Contents (Elt F)) : (⟨S50048x64, .f32⟩ : BufTy).Contents (Elt F) :=
  pad S50048x64 ![0, 0] ![48, 0] ![0, 0] a (sitofp .f32 (constantI S_ 32 0#32)) pads_S50000x64_S50048x64_0480_000 h_S_

/-- A weight matrix transposed and narrowed to bf16: what a region's second window holds. -/
def wT (w : (⟨S64x64, .f32⟩ : BufTy).Contents (Elt F)) : (⟨S64x64, .bf16⟩ : BufTy).Contents (Elt F) :=
  truncf .bf16 (transpose S64x64 [1, 0] w transposes_S64x64_S64x64_1_0) bitsLt_bf16_f32

/-- The program's last stretch: the first 50000 rows of the second region's output contracted over the nodes against
    the weight row, transposed to a column, the bias added, the logistic function `1 / (1 + exp (-z))`. -/
def tail (h : (⟨S50048x64, .f32⟩ : BufTy).Contents (Elt F)) (w3 : (⟨S1x50000, .f32⟩ : BufTy).Contents (Elt F))
    (b3 : (⟨S1, .f32⟩ : BufTy).Contents (Elt F)) : (⟨S64x1, .f32⟩ : BufTy).Contents (Elt F) :=
  Host.divf (broadcastInDim S64x1 ![] bcast_S_S64x1 (constant S_ .f32 0x3F800000#32))
    (addf (broadcastInDim S64x1 ![] bcast_S_S64x1 (constant S_ .f32 0x3F800000#32))
      (Host.exp (Host.negf (addf
        (transpose S64x1 [1, 0]
          (Host.dotGeneral dot_S1x50000_S50000x64_S1x64_1_0_0_1_n_n none w3
            (extractStridedSlice S50000x64 ![0, 0] h slices_S50048x64_S50000x64_0_0))
          transposes_S1x64_S64x1_1_0)
        (broadcastInDim S64x1 ![0, 1] bcast_S1x1_S64x1_0_1 (broadcastInDim S1x1 ![1] bcast_S1_S1x1_1 b3))))))

/-- One linear layer at the extended reals, at one element: row `r` of the features against column `q` of the
    (transposed) weights, plus the bias of column `q`. -/
def linAt (x : Vec Ideal S50048x64 .f32) (w : Vec Ideal S64x64 .bf16) (b : Vec Ideal S64 .f32) (r : Fin 50048) (q : Fin 64) : EReal :=
  (∑ k : Fin 64, x (ix2 r k) * w (ix2 k q)) + b (ix1 q)

end Cert.Gcn

end
-- ==== Proof.KernelHost.lean ====
/-
  What each region is entered with, and what the program returns, as the host arithmetic of the launch memory.

  Before the first region the host sums the feature rows over the edges, pads the sums to 50048 rows and prepares the
  weights; between the regions it does the same with the first region's output in the features' place; after the
  second it contracts the nodes away and applies the logistic function.  No stretch writes an argument array.
-/
import proofs.«427391_j62285615726745_2_alg».proof.Proof.Gen.KernelIdeal.Frame
import proofs.«427391_j62285615726745_2_alg».proof.Proof.Terms

set_option maxRecDepth 16384

noncomputable section

namespace Cert.Gcn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The first region's entry -/

theorem entry0_x (c : Dev nD) :
    V3 m ρ c main_v10 = padRows (agg1 (m ((c : Thread nD τ).loc main_arg0)) (m ((c : Thread nD τ).loc main_arg7)) (m ((c : Thread nD τ).loc main_arg8))) := by
  show StableHlo.after hostOps0_2 (StableHlo.after hostOps0_1 (StableHlo.after hostOps0 (W0 m ρ c))) (Proc.devRef .tc main_v10) = _
  after_results
  rfl

theorem entry0_w (c : Dev nD) : V3 m ρ c main_v12 = wT (m ((c : Thread nD τ).loc main_arg1)) := by
  show StableHlo.after hostOps0_2 (StableHlo.after hostOps0_1 (StableHlo.after hostOps0 (W0 m ρ c))) (Proc.devRef .tc main_v12) = _
  after_results
  rfl

theorem entry0_b (c : Dev nD) : V3 m ρ c main_arg2 = (m ((c : Thread nD τ).loc main_arg2)) := by
  show StableHlo.after hostOps0_2 (StableHlo.after hostOps0_1 (StableHlo.after hostOps0 (W0 m ρ c))) (Proc.devRef .tc main_arg2) = _
  after_results

/-! ## The second region's entry -/

/-- An argument array is what it was at launch when the first region is left. -/
theorem exit0_arg (c : Dev nD) (b : Ref sig .tc) (hb : ∀ w, Pipeline.arrRef spec0 w ≠ b)
    (h3 : W3 m ρ c (Proc.devRef .tc b) = m ((c : Thread nD τ).loc b)) :
    W4 m ρ c (Proc.devRef .tc b) = m ((c : Thread nD τ).loc b) :=
  (W4_of_ne m ρ c b hb).trans h3

theorem exit0_arg3 (c : Dev nD) : W4 m ρ c (Proc.devRef .tc main_arg3) = (m ((c : Thread nD τ).loc main_arg3)) :=
  exit0_arg m ρ c main_arg3 (by decide) (by
    show StableHlo.after hostOps0_2 (StableHlo.after hostOps0_1 (StableHlo.after hostOps0 (W0 m ρ c))) (Proc.devRef .tc main_arg3) = _
    after_results)
theorem exit0_arg4 (c : Dev nD) : W4 m ρ c (Proc.devRef .tc main_arg4) = (m ((c : Thread nD τ).loc main_arg4)) :=
  exit0_arg m ρ c main_arg4 (by decide) (by
    show StableHlo.after hostOps0_2 (StableHlo.after hostOps0_1 (StableHlo.after hostOps0 (W0 m ρ c))) (Proc.devRef .tc main_arg4) = _
    after_results)
theorem exit0_arg5 (c : Dev nD) : W4 m ρ c (Proc.devRef .tc main_arg5) = (m ((c : Thread nD τ).loc main_arg5)) :=
  exit0_arg m ρ c main_arg5 (by decide) (by
    show StableHlo.after hostOps0_2 (StableHlo.after hostOps0_1 (StableHlo.after hostOps0 (W0 m ρ c))) (Proc.devRef .tc main_arg5) = _
    after_results)
theorem exit0_arg6 (c : Dev nD) : W4 m ρ c (Proc.devRef .tc main_arg6) = (m ((c : Thread nD τ).loc main_arg6)) :=
  exit0_arg m ρ c main_arg6 (by decide) (by
    show StableHlo.after hostOps0_2 (StableHlo.after hostOps0_1 (StableHlo.after hostOps0 (W0 m ρ c))) (Proc.devRef .tc main_arg6) = _
    after_results)
theorem exit0_arg7 (c : Dev nD) : W4 m ρ c (Proc.devRef .tc main_arg7) = (m ((c : Thread nD τ).loc main_arg7)) :=
  exit0_arg m ρ c main_arg7 (by decide) (by
    show StableHlo.after hostOps0_2 (StableHlo.after hostOps0_1 (StableHlo.after hostOps0 (W0 m ρ c))) (Proc.devRef .tc main_arg7) = _
    after_results)
theorem exit0_arg8 (c : Dev nD) : W4 m ρ c (Proc.devRef .tc main_arg8) = (m ((c : Thread nD τ).loc main_arg8)) :=
  exit0_arg m ρ c main_arg8 (by decide) (by
    show StableHlo.after hostOps0_2 (StableHlo.after hostOps0_1 (StableHlo.after hostOps0 (W0 m ρ c))) (Proc.devRef .tc main_arg8) = _
    after_results)

/-- The first region's output array, as the second stretch finds it. -/
theorem exit0_out (c : Dev nD) : W4 m ρ c (Proc.devRef .tc main_v13) = (dat0 (V3 m ρ) c).arrAt 3 cfg0.N :=
  W4_arr m ρ c 3

theorem entry1_x (c : Dev nD) :
    V7 m ρ c main_v24 = padRows (agg2 ((dat0 (V3 m ρ) c).arrAt 3 cfg0.N) (m ((c : Thread nD τ).loc main_arg7)) (m ((c : Thread nD τ).loc main_arg8))) := by
  show StableHlo.after hostOps1_2 (StableHlo.after hostOps1_1 (StableHlo.after hostOps1 (W4 m ρ c))) (Proc.devRef .tc main_v24) = _
  after_results
  rw [exit0_arg7, exit0_arg8, exit0_out]
  rfl

theorem entry1_w (c : Dev nD) : V7 m ρ c main_v26 = wT (m ((c : Thread nD τ).loc main_arg3)) := by
  show StableHlo.after hostOps1_2 (StableHlo.after hostOps1_1 (StableHlo.after hostOps1 (W4 m ρ c))) (Proc.devRef .tc main_v26) = _
  after_results
  rw [exit0_arg3]
  rfl

theorem entry1_b (c : Dev nD) : V7 m ρ c main_arg4 = (m ((c : Thread nD τ).loc main_arg4)) := by
  show StableHlo.after hostOps1_2 (StableHlo.after hostOps1_1 (StableHlo.after hostOps1 (W4 m ρ c))) (Proc.devRef .tc main_arg4) = _
  after_results
  exact exit0_arg4 m ρ c

/-! ## The result -/

theorem exit1_arg5 (c : Dev nD) : W8 m ρ c (Proc.devRef .tc main_arg5) = (m ((c : Thread nD τ).loc main_arg5)) :=
  (W8_of_ne m ρ c main_arg5 (by decide)).trans (by
    show StableHlo.after hostOps1_2 (StableHlo.after hostOps1_1 (StableHlo.after hostOps1 (W4 m ρ c))) (Proc.devRef .tc main_arg5) = _
    after_results
    exact exit0_arg5 m ρ c)
theorem exit1_arg6 (c : Dev nD) : W8 m ρ c (Proc.devRef .tc main_arg6) = (m ((c : Thread nD τ).loc main_arg6)) :=
  (W8_of_ne m ρ c main_arg6 (by decide)).trans (by
    show StableHlo.after hostOps1_2 (StableHlo.after hostOps1_1 (StableHlo.after hostOps1 (W4 m ρ c))) (Proc.devRef .tc main_arg6) = _
    after_results
    exact exit0_arg6 m ρ c)

/-- The second region's output array, as the last stretch finds it. -/
theorem exit1_out (c : Dev nD) : W8 m ρ c (Proc.devRef .tc main_v27) = (dat1 (V7 m ρ) c).arrAt 3 cfg1.N :=
  W8_arr m ρ c 3

/-- The program's result: the last stretch of the second region's output, the weight row and the last bias. -/
theorem result_eq (c : Dev nD) :
    W9 m ρ c (Proc.devRef .tc main_v39) = tail ((dat1 (V7 m ρ) c).arrAt 3 cfg1.N) (m ((c : Thread nD τ).loc main_arg5)) (m ((c : Thread nD τ).loc main_arg6)) := by
  show StableHlo.after hostOps2 (W8 m ρ c) (Proc.devRef .tc main_v39) = _
  after_results
  rw [exit1_arg5, exit1_arg6, exit1_out]
  rfl

end Cert.Gcn

end
-- ==== Proof.RegionValue.lean ====
/-
  What each linear-layer region leaves in its output array.

  A region runs its body at 17 grid points; point `t` stages rows `2944 t … 2944 t + 2943` of the feature array, the
  whole 64 × 64 weight block and the whole bias, and writes back those rows of the output: the rows times the weights
  (a matrix product into a zero accumulator) plus the bias, and in the first region the maximum of that with zero.  The 17
  row blocks tile the 50048 rows, so every element of the output array is one point's.
-/
import proofs.«427391_j62285615726745_2_alg».proof.Proof.Gen.KernelIdeal.Frame
import proofs.«427391_j62285615726745_2_alg».proof.Proof.Terms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The body's arithmetic at one element

Both bodies multiply a 2944 × 64 row block by the 64 × 64 weight block, contracting the block's second axis against
the weights' first.  At output element `(p, q)` and contraction coordinate `k` the two operands are read at `(p, k)` and
`(k, q)`: the four coordinate facts below, one per operand axis. -/

/-- Left operand, row axis: the output's row. -/
private theorem dot_lhs_0 (i : S2944x64.Idx) (k : dot_S2944x64_S64x64_S2944x64_1_0_0_1_n_n.contr.Idx) :
    (dot_S2944x64_S64x64_S2944x64_1_0_0_1_n_n.lhsIdx i k 0).val = (i 0).val := by
  unfold DotDims.lhsIdx
  rw [dif_neg (show ¬(0 : Fin S2944x64.rank) ∈ dot_S2944x64_S64x64_S2944x64_1_0_0_1_n_n.lhsBatch by decide), dif_pos (show (0 : Fin S2944x64.rank) ∈ dot_S2944x64_S64x64_S2944x64_1_0_0_1_n_n.lhsNonContracting by decide)]
  rfl

/-- Left operand, column axis: the contraction coordinate. -/
private theorem dot_lhs_1 (i : S2944x64.Idx) (k : dot_S2944x64_S64x64_S2944x64_1_0_0_1_n_n.contr.Idx) :
    (dot_S2944x64_S64x64_S2944x64_1_0_0_1_n_n.lhsIdx i k 1).val = (k ⟨0, by decide⟩).val :=
  dot_S2944x64_S64x64_S2944x64_1_0_0_1_n_n.lhsIdx_val_of_single rfl i k

/-- Right operand, row axis: the contraction coordinate. -/
private theorem dot_rhs_0 (i : S2944x64.Idx) (k : dot_S2944x64_S64x64_S2944x64_1_0_0_1_n_n.contr.Idx) :
    (dot_S2944x64_S64x64_S2944x64_1_0_0_1_n_n.rhsIdx i k 0).val = (k ⟨0, by decide⟩).val :=
  dot_S2944x64_S64x64_S2944x64_1_0_0_1_n_n.rhsIdx_val_of_single rfl i k

/-- Right operand, column axis: the output's column. -/
private theorem dot_rhs_1 (i : S2944x64.Idx) (k : dot_S2944x64_S64x64_S2944x64_1_0_0_1_n_n.contr.Idx) :
    (dot_S2944x64_S64x64_S2944x64_1_0_0_1_n_n.rhsIdx i k 1).val = (i 1).val := by
  unfold DotDims.rhsIdx
  rw [dif_neg (show ¬(1 : Fin S64x64.rank) ∈ dot_S2944x64_S64x64_S2944x64_1_0_0_1_n_n.rhsBatch by decide), dif_pos (show (1 : Fin S64x64.rank) ∈ dot_S2944x64_S64x64_S2944x64_1_0_0_1_n_n.rhsNonContracting by decide)]
  rfl

/-- A row block times the weight block into a zero accumulator, at one element: the sum over the 64 shared coordinates
    (the product is exact at the extended reals, and the one-axis contraction index is re-indexed by its coordinate). -/
private theorem rows_mul_apply (a : FVec Ideal S2944x64 .bf16) (w : FVec Ideal S64x64 .bf16) (p : Fin 2944) (q : Fin 64) :
    (matmul dot_S2944x64_S64x64_S2944x64_1_0_0_1_n_n none a w (constant (F := Ideal) S2944x64 .f32 0x00000000#32) : FVec Ideal S2944x64 .f32) (ix2 p q)
      = ∑ k : Fin 64, a (ix2 p k) * w (ix2 k q) := by
  simp only [matmul]
  rw [Ideal.matmul_constant_zero_apply, ← Equiv.sum_comp (contrEquiv1 dot_S2944x64_S64x64_S2944x64_1_0_0_1_n_n 64 rfl rfl).symm]
  refine Finset.sum_congr rfl fun k _ => ?_
  have hk := contrEquiv1_symm_val dot_S2944x64_S64x64_S2944x64_1_0_0_1_n_n 64 rfl rfl k
  have el : dot_S2944x64_S64x64_S2944x64_1_0_0_1_n_n.lhsIdx (ix2 p q) ((contrEquiv1 dot_S2944x64_S64x64_S2944x64_1_0_0_1_n_n 64 rfl rfl).symm k) = ix2 p k :=
    funext fun b => Fin.ext (by
      match b with
      | ⟨0, _⟩ => exact dot_lhs_0 _ _
      | ⟨1, _⟩ => exact (dot_lhs_1 _ _).trans hk)
  have er : dot_S2944x64_S64x64_S2944x64_1_0_0_1_n_n.rhsIdx (ix2 p q) ((contrEquiv1 dot_S2944x64_S64x64_S2944x64_1_0_0_1_n_n 64 rfl rfl).symm k) = ix2 k q :=
    funext fun b => Fin.ext (by
      match b with
      | ⟨0, _⟩ => exact (dot_rhs_0 _ _).trans hk
      | ⟨1, _⟩ => exact dot_rhs_1 _ _)
  rw [el, er]

/-- The bias, given a unit row axis and repeated down the 2944 rows, read at one element: the bias of that column. -/
private theorem bias_rows_apply (b : Vec Ideal S64 .f32) (p : Fin 2944) (q : Fin 64) :
    (broadcastTo S2944x64 (shapeCast S1x64 b shapeCasts_S64_S1x64) broadcasts_S1x64_S2944x64 : FVec Ideal S2944x64 .f32) (ix2 p q) = b (ix1 q) :=
  (broadcastTo_1b_ab_apply _ broadcasts_S1x64_S2944x64 p q).trans (shapeCast_a_1a_apply b shapeCasts_S64_S1x64 0 q)

/-- The first region's body at one element of its block: row `p` of the feature block against column `q` of the weight
    block, plus the bias of column `q`, cut off below at zero.  The casts to the same shape are the identity, the
    narrowing to bf16 is the identity at the extended reals, and the zero word is the real zero. -/
private theorem pay0_apply (x0 : Vec Ideal S2944x64 .f32) (x1 : Vec Ideal S64x64 .bf16) (x2 : Vec Ideal S64 .f32) (p : Fin 2944) (q : Fin 64) :
    (k0_pay1 x0 x1 x2 : FVec Ideal S2944x64 .f32) (ix2 p q) = max ((∑ k : Fin 64, x0 (ix2 p k) * x1 (ix2 k q)) + x2 (ix1 q)) 0 := by
  unfold k0_pay1
  rw [maximumf_apply, addf_apply, rows_mul_apply, bias_rows_apply, shapeCast_self, shapeCast_self, broadcast_apply]
  show max _ (Ideal.ofBits .f32 0x00000000#32) = _
  rw [Ideal.ofBits_zero_f32]
  rfl

/-- The second region's body at one element of its block: the same without the cut-off. -/
private theorem pay1_apply (x0 : Vec Ideal S2944x64 .f32) (x1 : Vec Ideal S64x64 .bf16) (x2 : Vec Ideal S64 .f32) (p : Fin 2944) (q : Fin 64) :
    (k1_pay1 x0 x1 x2 : FVec Ideal S2944x64 .f32) (ix2 p q) = (∑ k : Fin 64, x0 (ix2 p k) * x1 (ix2 k q)) + x2 (ix1 q) := by
  unfold k1_pay1
  rw [addf_apply, rows_mul_apply, bias_rows_apply, shapeCast_self, shapeCast_self]
  rfl

private theorem hz2 : (![0, 0] : Fin 2 → Nat) = fun _ => 0 := funext fun a => by fin_cases a <;> rfl

private theorem hz1 : (![0] : Fin 1 → Nat) = fun _ => 0 := funext fun a => by fin_cases a; rfl

/-! ## The first region: from blocks to the array -/

/-- The first region's output array: the linear layer of the three entry arrays, cut off below at zero, element by element. -/
private abbrev reluLin (x : Vec Ideal S50048x64 .f32) (w : Vec Ideal S64x64 .bf16) (b : Vec Ideal S64 .f32) : S50048x64.Idx → Elt Ideal .f32 :=
  fun i => max (linAt x w b ⟨(i 0).val, (i 0).isLt⟩ ⟨(i 1).val, (i 1).isLt⟩) 0

/-- The block indices over the 17 points: the feature and output windows step down the rows with the point, the weight
    and bias windows stay at their one block. -/
private theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The feature block at point `t` is rows `2944 t … 2944 t + 2943` of the feature array: a block's coordinate in the
    array is the block index times the block's size plus the coordinate inside the block. -/
private theorem featBlk0 (c : Dev nD) (t : Fin cfg0.N) (p : Fin 2944) (k : Fin 64) (r : Fin 50048) (hr : r.val = t.val * 2944 + p.val) :
    (iblk0 V c 0 t : Vec Ideal S2944x64 .f32) (ix2 p k) = (V c main_v10 : Vec Ideal S50048x64 .f32) (ix2 r k) := by
  obtain ⟨e0, e1, -⟩ := blockIdx0 t
  unfold iblk0
  rw [View.read_apply]
  show (V c main_v10 : Vec Ideal S50048x64 .f32) _ = _
  congr 1
  funext a
  apply Fin.ext
  match a with
  | ⟨0, _⟩ => show win0_0.index t (0 : Fin 2) * 2944 + 1 * p.val = r.val; omega
  | ⟨1, _⟩ => show win0_0.index t (1 : Fin 2) * 64 + 1 * k.val = k.val; omega

/-- The weight block at every point is the whole weight array. -/
private theorem weightBlk0 (c : Dev nD) (t : Fin cfg0.N) (k q : Fin 64) :
    (iblk0 V c 1 t : Vec Ideal S64x64 .bf16) (ix2 k q) = (V c main_v12 : Vec Ideal S64x64 .bf16) (ix2 k q) := by
  obtain ⟨-, -, e2, e3, -⟩ := blockIdx0 t
  unfold iblk0
  rw [View.read_apply]
  show (V c main_v12 : Vec Ideal S64x64 .bf16) _ = _
  congr 1
  funext a
  apply Fin.ext
  match a with
  | ⟨0, _⟩ => show win0_1.index t (0 : Fin 2) * 64 + 1 * k.val = k.val; omega
  | ⟨1, _⟩ => show win0_1.index t (1 : Fin 2) * 64 + 1 * q.val = q.val; omega

/-- The bias block at every point is the whole bias. -/
private theorem biasBlk0 (c : Dev nD) (t : Fin cfg0.N) (q : Fin 64) :
    (iblk0 V c 2 t : Vec Ideal S64 .f32) (ix1 q) = (V c main_arg2 : Vec Ideal S64 .f32) (ix1 q) := by
  obtain ⟨-, -, -, -, e4, -⟩ := blockIdx0 t
  unfold iblk0
  rw [View.read_apply]
  show (V c main_arg2 : Vec Ideal S64 .f32) _ = _
  congr 1
  funext a
  apply Fin.ext
  match a with
  | ⟨0, _⟩ => show win0_2.index t (0 : Fin 1) * 64 + 1 * q.val = q.val; omega

/-- The body's result at point `t`, at row `p` of its block and column `q`, is the linear layer of the entry arrays at row
    `2944 t + p`, cut off below at zero. -/
private theorem point0_apply (c : Dev nD) (t : Fin cfg0.N) (p : Fin 2944) (q : Fin 64) (r : Fin 50048) (hr : r.val = t.val * 2944 + p.val) :
    (k0_pay1 (iblk0 V c 0 t) (iblk0 V c 1 t) (iblk0 V c 2 t) : FVec Ideal S2944x64 .f32) (ix2 p q)
      = max (linAt (V c main_v10) (V c main_v12) (V c main_arg2) r q) 0 := by
  rw [pay0_apply]
  unfold linAt
  rw [biasBlk0 V c t q]
  refine congrArg (fun s => max (s + (V c main_arg2 : Vec Ideal S64 .f32) (ix1 q)) 0) (Finset.sum_congr rfl fun k _ => ?_)
  rw [featBlk0 V c t p k r hr, weightBlk0 V c t k q]

/-- What point `t` writes back is its block of `reluLin` of the entry arrays: the body's one store fills the whole staging
    block, its three loads read whole blocks, and element `(p, q)` of the output block sits at row `2944 t + p`, column `q`. -/
private theorem flushed0_eq (c : Dev nD) (t : Fin cfg0.N) :
    (dat0 (F := Ideal) V c).flushed 3 t
      = ((cfg0.win 3).blk t).view.read (Elt Ideal) (reluLin (V c main_v10) (V c main_v12) (V c main_arg2)) := by
  show (cfg0.win 3).cut (grid0.coords t) ((dat0 V c).after 3 t) = _
  rw [after0_3]
  unfold out0_3
  rw [View.canon_unit_zero hz2]
  simp only [View.ld_unit_zero (S := S2944x64) hz2, View.ld_unit_zero (S := S64x64) hz2, View.ld_unit_zero (S := S64) hz1]
  obtain ⟨-, -, -, -, -, e5, e6⟩ := blockIdx0 t
  funext j
  have hp : (j 0).val < 2944 := (j 0).isLt
  have hq : (j 1).val < 64 := (j 1).isLt
  have hj : (win0 3).xinj (grid0.coords t) j = ix2 (⟨(j 0).val, hp⟩ : Fin 2944) (⟨(j 1).val, hq⟩ : Fin 64) := by
    funext a
    apply Fin.ext
    match a with
    | ⟨0, _⟩ => rfl
    | ⟨1, _⟩ => rfl
  have hr : ((((cfg0.win 3).blk t).view.emb j) 0).val = t.val * 2944 + (j 0).val := by
    show win0_3.index t (0 : Fin 2) * 2944 + 1 * (j 0).val = _
    omega
  have hc : ((((cfg0.win 3).blk t).view.emb j) 1).val = (j 1).val := by
    show win0_3.index t (1 : Fin 2) * 64 + 1 * (j 1).val = _
    omega
  show (k0_pay1 (iblk0 V c 0 t) (iblk0 V c 1 t) (iblk0 V c 2 t) : FVec Ideal S2944x64 .f32) ((win0 3).xinj (grid0.coords t) j)
    = reluLin (V c main_v10) (V c main_v12) (V c main_arg2) (((cfg0.win 3).blk t).view.emb j)
  refine ((congrArg _ hj).trans (point0_apply V c t ⟨(j 0).val, hp⟩ ⟨(j 1).val, hq⟩ ⟨_, ((((cfg0.win 3).blk t).view.emb j) 0).isLt⟩ hr)).trans ?_
  exact congrArg (fun q' : Fin 64 => max (linAt (V c main_v10) (V c main_v12) (V c main_arg2) ⟨_, ((((cfg0.win 3).blk t).view.emb j) 0).isLt⟩ q') 0)
    (Fin.ext hc.symm : (⟨(j 1).val, hq⟩ : Fin 64) = ⟨_, ((((cfg0.win 3).blk t).view.emb j) 1).isLt⟩)

/-- An index of the output array is in point `t`'s block iff each coordinate is in the block's range on its axis. -/
private theorem mem_blk0 (t : Fin cfg0.N) (i : S50048x64.Idx) :
    i ∈ ((cfg0.win 3).blk t).view.set ↔ ∀ a : Fin 2, win0_3.index t a * S2944x64.size a ≤ (i a).val ∧ (i a).val < win0_3.index t a * S2944x64.size a + S2944x64.size a := by
  show i ∈ ((View.whole main_v13).slice (win0_3.rect t)).set ↔ _
  rw [View.set_slice_whole, Rect.mem_set_unit]
  exact Iff.rfl

/-- The 17 row blocks of 2944 tile the 50048 rows: row `r` is in the block of point `r / 2944`. -/
private theorem covered0 (i : S50048x64.Idx) : ∃ t : Fin cfg0.N, (cfg0.win 3).flush t = true ∧ i ∈ ((cfg0.win 3).blk t).view.set := by
  have hi0 : (i 0).val < 50048 := (i 0).isLt
  have hi1 : (i 1).val < 64 := (i 1).isLt
  have hN : cfg0.N = 17 := N_0
  obtain ⟨t, ht⟩ : ∃ t : Fin cfg0.N, t.val = (i 0).val / 2944 := ⟨⟨(i 0).val / 2944, by rw [hN]; omega⟩, rfl⟩
  obtain ⟨-, -, -, -, -, e5, e6⟩ := blockIdx0 t
  refine ⟨t, flush0_3 t, ?_⟩
  rw [mem_blk0]
  intro a
  match a with
  | ⟨0, _⟩ =>
    show win0_3.index t (0 : Fin 2) * 2944 ≤ (i 0).val ∧ (i 0).val < win0_3.index t (0 : Fin 2) * 2944 + 2944
    omega
  | ⟨1, _⟩ =>
    show win0_3.index t (1 : Fin 2) * 64 ≤ (i 1).val ∧ (i 1).val < win0_3.index t (1 : Fin 2) * 64 + 64
    omega

/-- The first region's output array after its 17 points is `reluLin` of the entry arrays: every point writes its block of it,
    and the blocks cover the array. -/
private theorem final0 (c : Dev nD) :
    (dat0 (F := Ideal) V c).arrAt 3 cfg0.N = reluLin (V c main_v10) (V c main_v12) (V c main_arg2) :=
  (dat0 V c).arrAt_eq_of_cover 3 _ (fun t _ => flushed0_eq V c t) covered0

/-- The first region's output array at row `r`, column `q`: the linear layer of the entry arrays there, cut off below at zero. -/
theorem region0_value (c : Dev nD) (r : Fin 50048) (q : Fin 64) :
    ((dat0 (F := Ideal) V c).arrAt 3 cfg0.N : Vec Ideal S50048x64 .f32) (ix2 r q)
      = max (linAt (V c main_v10) (V c main_v12) (V c main_arg2) r q) 0 :=
  congrFun (final0 V c) (ix2 r q)

/-! ## The second region: from blocks to the array -/

/-- The second region's output array: the linear layer of the three entry arrays, element by element. -/
private abbrev lin (x : Vec Ideal S50048x64 .f32) (w : Vec Ideal S64x64 .bf16) (b : Vec Ideal S64 .f32) : S50048x64.Idx → Elt Ideal .f32 :=
  fun i => linAt x w b ⟨(i 0).val, (i 0).isLt⟩ ⟨(i 1).val, (i 1).isLt⟩

/-- The block indices over the 17 points: the feature and output windows step down the rows with the point, the weight
    and bias windows stay at their one block. -/
private theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The feature block at point `t` is rows `2944 t … 2944 t + 2943` of the feature array: a block's coordinate in the
    array is the block index times the block's size plus the coordinate inside the block. -/
private theorem featBlk1 (c : Dev nD) (t : Fin cfg1.N) (p : Fin 2944) (k : Fin 64) (r : Fin 50048) (hr : r.val = t.val * 2944 + p.val) :
    (iblk1 V c 0 t : Vec Ideal S2944x64 .f32) (ix2 p k) = (V c main_v24 : Vec Ideal S50048x64 .f32) (ix2 r k) := by
  obtain ⟨e0, e1, -⟩ := blockIdx1 t
  unfold iblk1
  rw [View.read_apply]
  show (V c main_v24 : Vec Ideal S50048x64 .f32) _ = _
  congr 1
  funext a
  apply Fin.ext
  match a with
  | ⟨0, _⟩ => show win1_0.index t (0 : Fin 2) * 2944 + 1 * p.val = r.val; omega
  | ⟨1, _⟩ => show win1_0.index t (1 : Fin 2) * 64 + 1 * k.val = k.val; omega

/-- The weight block at every point is the whole weight array. -/
private theorem weightBlk1 (c : Dev nD) (t : Fin cfg1.N) (k q : Fin 64) :
    (iblk1 V c 1 t : Vec Ideal S64x64 .bf16) (ix2 k q) = (V c main_v26 : Vec Ideal S64x64 .bf16) (ix2 k q) := by
  obtain ⟨-, -, e2, e3, -⟩ := blockIdx1 t
  unfold iblk1
  rw [View.read_apply]
  show (V c main_v26 : Vec Ideal S64x64 .bf16) _ = _
  congr 1
  funext a
  apply Fin.ext
  match a with
  | ⟨0, _⟩ => show win1_1.index t (0 : Fin 2) * 64 + 1 * k.val = k.val; omega
  | ⟨1, _⟩ => show win1_1.index t (1 : Fin 2) * 64 + 1 * q.val = q.val; omega

/-- The bias block at every point is the whole bias. -/
private theorem biasBlk1 (c : Dev nD) (t : Fin cfg1.N) (q : Fin 64) :
    (iblk1 V c 2 t : Vec Ideal S64 .f32) (ix1 q) = (V c main_arg4 : Vec Ideal S64 .f32) (ix1 q) := by
  obtain ⟨-, -, -, -, e4, -⟩ := blockIdx1 t
  unfold iblk1
  rw [View.read_apply]
  show (V c main_arg4 : Vec Ideal S64 .f32) _ = _
  congr 1
  funext a
  apply Fin.ext
  match a with
  | ⟨0, _⟩ => show win1_2.index t (0 : Fin 1) * 64 + 1 * q.val = q.val; omega

/-- The body's result at point `t`, at row `p` of its block and column `q`, is the linear layer of the entry arrays at row
    `2944 t + p`. -/
private theorem point1_apply (c : Dev nD) (t : Fin cfg1.N) (p : Fin 2944) (q : Fin 64) (r : Fin 50048) (hr : r.val = t.val * 2944 + p.val) :
    (k1_pay1 (iblk1 V c 0 t) (iblk1 V c 1 t) (iblk1 V c 2 t) : FVec Ideal S2944x64 .f32) (ix2 p q)
      = linAt (V c main_v24) (V c main_v26) (V c main_arg4) r q := by
  rw [pay1_apply]
  unfold linAt
  rw [biasBlk1 V c t q]
  refine congrArg (fun s => s + (V c main_arg4 : Vec Ideal S64 .f32) (ix1 q)) (Finset.sum_congr rfl fun k _ => ?_)
  rw [featBlk1 V c t p k r hr, weightBlk1 V c t k q]

/-- What point `t` writes back is its block of `lin` of the entry arrays: the body's one store fills the whole staging
    block, its three loads read whole blocks, and element `(p, q)` of the output block sits at row `2944 t + p`, column `q`. -/
private theorem flushed1_eq (c : Dev nD) (t : Fin cfg1.N) :
    (dat1 (F := Ideal) V c).flushed 3 t
      = ((cfg1.win 3).blk t).view.read (Elt Ideal) (lin (V c main_v24) (V c main_v26) (V c main_arg4)) := by
  show (cfg1.win 3).cut (grid1.coords t) ((dat1 V c).after 3 t) = _
  rw [after1_3]
  unfold out1_3
  rw [View.canon_unit_zero hz2]
  simp only [View.ld_unit_zero (S := S2944x64) hz2, View.ld_unit_zero (S := S64x64) hz2, View.ld_unit_zero (S := S64) hz1]
  obtain ⟨-, -, -, -, -, e5, e6⟩ := blockIdx1 t
  funext j
  have hp : (j 0).val < 2944 := (j 0).isLt
  have hq : (j 1).val < 64 := (j 1).isLt
  have hj : (win1 3).xinj (grid1.coords t) j = ix2 (⟨(j 0).val, hp⟩ : Fin 2944) (⟨(j 1).val, hq⟩ : Fin 64) := by
    funext a
    apply Fin.ext
    match a with
    | ⟨0, _⟩ => rfl
    | ⟨1, _⟩ => rfl
  have hr : ((((cfg1.win 3).blk t).view.emb j) 0).val = t.val * 2944 + (j 0).val := by
    show win1_3.index t (0 : Fin 2) * 2944 + 1 * (j 0).val = _
    omega
  have hc : ((((cfg1.win 3).blk t).view.emb j) 1).val = (j 1).val := by
    show win1_3.index t (1 : Fin 2) * 64 + 1 * (j 1).val = _
    omega
  show (k1_pay1 (iblk1 V c 0 t) (iblk1 V c 1 t) (iblk1 V c 2 t) : FVec Ideal S2944x64 .f32) ((win1 3).xinj (grid1.coords t) j)
    = lin (V c main_v24) (V c main_v26) (V c main_arg4) (((cfg1.win 3).blk t).view.emb j)
  refine ((congrArg _ hj).trans (point1_apply V c t ⟨(j 0).val, hp⟩ ⟨(j 1).val, hq⟩ ⟨_, ((((cfg1.win 3).blk t).view.emb j) 0).isLt⟩ hr)).trans ?_
  exact congrArg (fun q' : Fin 64 => linAt (V c main_v24) (V c main_v26) (V c main_arg4) ⟨_, ((((cfg1.win 3).blk t).view.emb j) 0).isLt⟩ q')
    (Fin.ext hc.symm : (⟨(j 1).val, hq⟩ : Fin 64) = ⟨_, ((((cfg1.win 3).blk t).view.emb j) 1).isLt⟩)

/-- An index of the output array is in point `t`'s block iff each coordinate is in the block's range on its axis. -/
private theorem mem_blk1 (t : Fin cfg1.N) (i : S50048x64.Idx) :
    i ∈ ((cfg1.win 3).blk t).view.set ↔ ∀ a : Fin 2, win1_3.index t a * S2944x64.size a ≤ (i a).val ∧ (i a).val < win1_3.index t a * S2944x64.size a + S2944x64.size a := by
  show i ∈ ((View.whole main_v27).slice (win1_3.rect t)).set ↔ _
  rw [View.set_slice_whole, Rect.mem_set_unit]
  exact Iff.rfl

/-- The 17 row blocks of 2944 tile the 50048 rows: row `r` is in the block of point `r / 2944`. -/
private theorem covered1 (i : S50048x64.Idx) : ∃ t : Fin cfg1.N, (cfg1.win 3).flush t = true ∧ i ∈ ((cfg1.win 3).blk t).view.set := by
  have hi0 : (i 0).val < 50048 := (i 0).isLt
  have hi1 : (i 1).val < 64 := (i 1).isLt
  have hN : cfg1.N = 17 := N_1
  obtain ⟨t, ht⟩ : ∃ t : Fin cfg1.N, t.val = (i 0).val / 2944 := ⟨⟨(i 0).val / 2944, by rw [hN]; omega⟩, rfl⟩
  obtain ⟨-, -, -, -, -, e5, e6⟩ := blockIdx1 t
  refine ⟨t, flush1_3 t, ?_⟩
  rw [mem_blk1]
  intro a
  match a with
  | ⟨0, _⟩ =>
    show win1_3.index t (0 : Fin 2) * 2944 ≤ (i 0).val ∧ (i 0).val < win1_3.index t (0 : Fin 2) * 2944 + 2944
    omega
  | ⟨1, _⟩ =>
    show win1_3.index t (1 : Fin 2) * 64 ≤ (i 1).val ∧ (i 1).val < win1_3.index t (1 : Fin 2) * 64 + 64
    omega

/-- The second region's output array after its 17 points is `lin` of the entry arrays: every point writes its block of it,
    and the blocks cover the array. -/
private theorem final1 (c : Dev nD) :
    (dat1 (F := Ideal) V c).arrAt 3 cfg1.N = lin (V c main_v24) (V c main_v26) (V c main_arg4) :=
  (dat1 V c).arrAt_eq_of_cover 3 _ (fun t _ => flushed1_eq V c t) covered1

/-- The second region's output array at row `r`, column `q`: the linear layer of the entry arrays there. -/
theorem region1_value (c : Dev nD) (r : Fin 50048) (q : Fin 64) :
    ((dat1 (F := Ideal) V c).arrAt 3 cfg1.N : Vec Ideal S50048x64 .f32) (ix2 r q)
      = linAt (V c main_v24) (V c main_v26) (V c main_arg4) r q :=
  congrFun (final1 V c) (ix2 r q)

end Cert.Gcn

end
-- ==== Proof.SrcRange.lean ====
/-
  The precondition's last two conjuncts, read: every edge's source is a row of the 50000-row feature table.
-/
import proofs.«427391_j62285615726745_2_alg».proof.Pre_finite_inputs
import proofs.«427391_j62285615726745_2_alg».proof.Proof.Gen.Pre_finite_inputs
import Idealize.ShloMosaic.Lib.StableHlo.Predicate
import Idealize.ShloMosaic.Lib.ReduceAll
import Idealize.ShloMosaic.Lib.ValueIdx

noncomputable section

namespace Cert.Gcn

open Idealize.ShloMosaic Idealize.ShloMosaic.ValueIdx

/-- The rank-0 shape has one index. -/
private instance subsingleton_scalar_idx : Subsingleton Cert.Pre_finite_inputs.S_.Idx :=
  ⟨fun _ _ => funext fun d => d.elim0⟩

open Cert.Pre_finite_inputs in
/-- The tail of the precondition alone: whatever bit the finiteness conjuncts gave, the whole being 1 makes
    both reductions by `and` over the source indices 1, hence each compare 1 at every edge; a signed compare that is 1
    is the order of the two words read as integers, and the bounds are the broadcast constants 0 and 50000. -/
private theorem part2_range (a7 : IVec S800000 32) (v33 : IVec S_ 1)
    (h : fn_part2 (F := Ideal) a7 v33 ix0 = 1#1) (e : Fin 800000) :
    0 ≤ (a7 (ix1 e)).toInt ∧ (a7 (ix1 e)).toInt < 50000 := by
  unfold fn_part2 at h
  dsimp only at h
  -- the outer `and`: (finiteness ∧ all (src ≥ 0)) ∧ all (src < 50000)
  obtain ⟨h37, h40⟩ := IntOp.andi_eq_one.1 h
  obtain ⟨-, h36⟩ := IntOp.andi_eq_one.1 h37
  -- a reduction by `and` over all edges that is 1 has a 1 at the edge e
  have ge := Host.reduce_andi_all _ _ _ _ _ h36 (ix1 e)
  have lt := Host.reduce_andi_all _ _ _ _ _ h40 (ix1 e)
  -- the compares as signed-integer facts; a broadcast scalar constant reads the constant everywhere
  have ge' := IntOp.cmpi_sge.1 ge
  have lt' := IntOp.cmpi_slt.1 lt
  have c0 : (0#32 : BitVec 32).toInt = 0 := by decide
  have c1 : (50000#32 : BitVec 32).toInt = 50000 := by decide
  exact ⟨c0 ▸ ge', c1 ▸ lt'⟩

/-- Where the precondition holds, each source index read as a signed integer lies in `[0, 50000)`. -/
theorem src_in_range
    (a0 : FVec Ideal Cert.Pre_finite_inputs.S50000x64 .f32) (a1 : FVec Ideal Cert.Pre_finite_inputs.S64x64 .f32)
    (a2 : FVec Ideal Cert.Pre_finite_inputs.S64 .f32) (a3 : FVec Ideal Cert.Pre_finite_inputs.S64x64 .f32)
    (a4 : FVec Ideal Cert.Pre_finite_inputs.S64 .f32) (a5 : FVec Ideal Cert.Pre_finite_inputs.S1x50000 .f32)
    (a6 : FVec Ideal Cert.Pre_finite_inputs.S1 .f32) (a7 a8 : IVec Cert.Pre_finite_inputs.S800000 32)
    (h : Cert.Pre_finite_inputs.fn (F := Ideal) a0 a1 a2 a3 a4 a5 a6 a7 a8 = fun _ => 1#1) (e : Fin 800000) :
    0 ≤ (a7 (ix1 e)).toInt ∧ (a7 (ix1 e)).toInt < 50000 := by
  -- the printed function is its tail applied to the source indices and the finiteness bit
  have h0 : Cert.Pre_finite_inputs.fn_part2 (F := Ideal) a7 _ ix0 = 1#1 := congrFun h ix0
  exact part2_range a7 _ h0 e

end Cert.Gcn

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.Bridge.lean ====
/-
  The kernel program's stages against the reference's, element by element, at the extended reals.

  Layer 1: the neighbour sums are the same term on both sides; a padded row below 50000 is the unpadded row, the
  narrowing to bf16 is the identity, a matrix product into zeros is the host's contraction, so rows below 50000 of the
  first region's output are the reference's hidden rows.  Layer 2: with every edge source in `[0, 50000)` neither
  gather wraps or clamps, so both read row `src e`, where the two tables agree; the scatter-add is then one function of
  equal updates, and the second layer's rows below 50000 agree as the first's did.  Last stretch: the kernel contracts
  the weight row against the sliced output, the reference the transposed output against the weight column: the same
  sum with each product commuted; the logistic function is applied to equal arguments.
-/
import proofs.«427391_j62285615726745_2_alg».proof.Proof.Gen.ReferenceIdeal.Read
import proofs.«427391_j62285615726745_2_alg».proof.Proof.Terms
import proofs.«427391_j62285615726745_2_alg».proof.Proof.LibRowGatherScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

noncomputable section

namespace Cert.Gcn

open Idealize.ShloMosaic Idealize.ShloMosaic.ValueIdx
open Cert.ReferenceIdeal.Read

variable (x0 : (⟨Cert.ReferenceIdeal.S50000x64, .f32⟩ : BufTy).Contents (Elt Ideal)) (x1 : (⟨Cert.ReferenceIdeal.S64x64, .f32⟩ : BufTy).Contents (Elt Ideal)) (x2 : (⟨Cert.ReferenceIdeal.S64, .f32⟩ : BufTy).Contents (Elt Ideal))
  (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S1x50000, .f32⟩ : BufTy).Contents (Elt Ideal)) (x6 : (⟨Cert.ReferenceIdeal.S1, .f32⟩ : BufTy).Contents (Elt Ideal))
  (x7 x8 : (⟨Cert.ReferenceIdeal.S800000, .i32⟩ : BufTy).Contents (Elt Ideal))

/-- A row below 50000 of the padded sums is the row of the sums: the index lies inside the operand. -/
private theorem padRows_apply (a : Vec Ideal Cert.KernelIdeal.S50000x64 .f32) (r : Fin 50000) (k : Fin 64) :
    padRows (F := Ideal) a (ix2 ⟨r.val, by omega⟩ k) = a (ix2 r k) := by
  unfold padRows
  exact pad_apply_of_inside _ _ _ a _ _ _ _ (ix2 r k) (fun ax => by
    match ax with
    | ⟨0, _⟩ => show r.val = 0 + r.val * (0 + 1); omega
    | ⟨1, _⟩ => show k.val = 0 + k.val * (0 + 1); omega)

/-- The transposed weights narrowed to bf16, at (k, q), are the weights at (q, k): narrowing is the identity at the
    extended reals. -/
private theorem wT_apply (w : Vec Ideal Cert.KernelIdeal.S64x64 .f32) (k q : Fin 64) :
    wT (F := Ideal) w (ix2 k q) = w (ix2 q k) := by
  unfold wT
  rw [truncf_apply]
  exact transpose_apply [1, 0] w _ (ix2 k q) (ix2 q k) (fun b => match b with
    | ⟨0, _⟩ => rfl
    | ⟨1, _⟩ => rfl)

/-- One linear layer over padded sums, at a row below 50000: the sum over the 64 features of the sums' row against
    row q of the weights, plus the bias. -/
private theorem linAt_padRows (a : Vec Ideal Cert.KernelIdeal.S50000x64 .f32) (w : Vec Ideal Cert.KernelIdeal.S64x64 .f32)
    (b : Vec Ideal Cert.KernelIdeal.S64 .f32) (r : Fin 50000) (q : Fin 64) :
    linAt (padRows (F := Ideal) a) (wT (F := Ideal) w) b ⟨r.val, by omega⟩ q
      = (∑ k : Fin 64, a (ix2 r k) * w (ix2 q k)) + b (ix1 q) := by
  unfold linAt
  congr 1
  refine Finset.sum_congr rfl fun k _ => ?_
  rw [padRows_apply, wT_apply]

/-- Layer 1's neighbour sums are the reference's: the same operations in the same order. -/
theorem agg1_eq : agg1 (F := Ideal) x0 x7 x8 = val_main_v9 (F := Ideal) x0 x7 x8 := by
  rfl

/-- Row `r < 50000` of the first linear layer over the padded sums is the reference's hidden row. -/
theorem layer1_row (r : Fin 50000) (q : Fin 64) :
    max (linAt (padRows (F := Ideal) (val_main_v9 (F := Ideal) x0 x7 x8)) (wT (F := Ideal) x1) x2 ⟨r.val, by omega⟩ q) 0
      = val_main_v15 (F := Ideal) x0 x1 x2 x7 x8 (ix2 r q) := by
  rw [linAt_padRows, val_main_v15_apply, val_main_v14_apply, val_main_v11_apply, val_main_v13_apply, val_main_v12_apply,
    val_main_call0_v0_apply, val_main_call0_cst_apply]
  generalize val_main_v9 (F := Ideal) x0 x7 x8 = a
  show max _ 0 = max (_ + _) (Ideal.ofBits .f32 0x00000000#32)
  rw [Ideal.ofBits_zero_f32]
  congr 2
  · refine Finset.sum_congr rfl fun k _ => ?_
    rw [val_main_v10_apply]
    have el : lidx_main_v11 (ix2 r q) k = ix2 r k := Shape.idx_ext₂ rfl rfl
    have er : idx_main_v10 (ridx_main_v11 (ix2 r q) k) = ix2 q k := Shape.idx_ext₂ rfl rfl
    rw [el, er]
  · exact congrArg x2 (funext fun a => match a with | ⟨0, _⟩ => rfl)

/-- A select on "the word is negative, read signed" against a zero word takes its else branch where the word is
    not negative. -/
private theorem select_slt_of_nonneg {s : Shape} {α : Type} (i z : IVec s 32) (a b : s.Idx → α) (j : s.Idx)
    (hz : z j = 0#32) (h : 0 ≤ (i j).toInt) : select (cmpi .slt i z) a b j = b j := by
  have hlt : (i j).slt (z j) = false := by
    rw [hz]
    simp only [BitVec.slt, BitVec.toInt_zero, decide_eq_false_iff_not, Int.not_lt]
    exact h
  show (if BitVec.ofBool ((i j).slt (z j)) = 1 then _ else _) = _
  rw [hlt]
  rfl

/-- The start row of edge e, for a table of any number of rows, is the edge's source itself when that is not negative. -/
private theorem rowIdx_apply (n : BitVec 32) (src : (⟨Cert.KernelIdeal.S800000, .i32⟩ : BufTy).Contents (Elt Ideal)) (e : Fin 800000)
    (h : 0 ≤ (src (ix1 e)).toInt) : rowIdx (F := Ideal) n src (ix2 e (0 : Fin 1)) = src (ix1 e) := by
  unfold rowIdx
  refine (broadcastInDim_apply _ _ _ (ix2 e (0 : Fin 1)) (ix1 e) (fun a => match a with
    | ⟨0, _⟩ => by show e.val = if (800000 : Nat) = 1 then 0 else e.val; rw [if_neg (by decide)])).trans ?_
  exact select_slt_of_nonneg _ _ _ _ _ (broadcastInDim_apply _ _ _ (ix1 e) (fun a => a.elim0) (fun a => a.elim0)) h

/-- Two rows with the same number are the same row. -/
private theorem row_congr {N C : Nat} {α : Type} (x : (⟨2, ![N, C]⟩ : Shape).Idx → α) (a b : Fin N) (q : Fin C)
    (hab : a.val = b.val) : x (ix2 a q) = x (ix2 b q) := by
  obtain rfl : a = b := Fin.ext hab
  rfl

/-- The two gathers of layer 2 at one element: both read row (src e), below 50000, where the tables agree. -/
private theorem gather2_at (hsrc : ∀ e : Fin 800000, 0 ≤ (x7 (ix1 e)).toInt ∧ (x7 (ix1 e)).toInt < 50000)
    (h : Vec Ideal Cert.KernelIdeal.S50048x64 .f32)
    (hh : ∀ (r : Fin 50000) (q : Fin 64), h (ix2 ⟨r.val, by omega⟩ q) = val_main_v15 (F := Ideal) x0 x1 x2 x7 x8 (ix2 r q))
    (e : Fin 800000) (q : Fin 64) :
    Host.gather Cert.KernelIdeal.gather_S50048x64_S800000x1_S800000x64_1_0_n_n_0_1_164 h (rowIdx (F := Ideal) 50048#32 x7) (ix2 e q)
      = val_main_v22 (F := Ideal) x0 x1 x2 x7 x8 (ix2 e q) := by
  have h0 := (hsrc e).1
  have h1 := (hsrc e).2
  have hA : rowIdx (F := Ideal) 50048#32 x7 (ix2 e (0 : Fin 1)) = x7 (ix1 e) := rowIdx_apply 50048#32 x7 e h0
  have hB : val_main_v21 (F := Ideal) x7 (ix2 e (0 : Fin 1)) = x7 (ix1 e) := rowIdx_apply 50000#32 x7 e h0
  unfold val_main_v22
  refine (gather_rows _ rfl rfl rfl rfl rfl h _ e q (by decide)).trans ?_
  refine Eq.trans ?_ (gather_rows _ rfl rfl rfl rfl rfl (val_main_v15 (F := Ideal) x0 x1 x2 x7 x8) _ e q (by decide)).symm
  refine ((row_congr h _ ⟨(⟨(x7 (ix1 e)).toInt.toNat, by omega⟩ : Fin 50000).val, by omega⟩ q ?_).trans
    (hh ⟨(x7 (ix1 e)).toInt.toNat, by omega⟩ q)).trans (row_congr _ _ _ q ?_)
  · show min _ (50048 - 1) = (x7 (ix1 e)).toInt.toNat
    rw [hA]
    omega
  · show (x7 (ix1 e)).toInt.toNat = min _ (50000 - 1)
    rw [hB]
    omega

/-- With the sources in range the two gathers of layer 2 read the same rows of tables that agree below row 50000. -/
theorem gather2_eq (hsrc : ∀ e : Fin 800000, 0 ≤ (x7 (ix1 e)).toInt ∧ (x7 (ix1 e)).toInt < 50000)
    (h : Vec Ideal Cert.KernelIdeal.S50048x64 .f32)
    (hh : ∀ (r : Fin 50000) (q : Fin 64), h (ix2 ⟨r.val, by omega⟩ q) = val_main_v15 (F := Ideal) x0 x1 x2 x7 x8 (ix2 r q)) :
    Host.gather Cert.KernelIdeal.gather_S50048x64_S800000x1_S800000x64_1_0_n_n_0_1_164 h (rowIdx (F := Ideal) 50048#32 x7)
      = val_main_v22 (F := Ideal) x0 x1 x2 x7 x8 := by
  funext j
  rw [eq_ix2 j]
  exact gather2_at x0 x1 x2 x7 x8 hsrc h hh (j 0) (j 1)

/-- Layer 2's neighbour sums over a table that agrees with the reference's hidden rows are the reference's. -/
theorem agg2_eq (hsrc : ∀ e : Fin 800000, 0 ≤ (x7 (ix1 e)).toInt ∧ (x7 (ix1 e)).toInt < 50000)
    (h : Vec Ideal Cert.KernelIdeal.S50048x64 .f32)
    (hh : ∀ (r : Fin 50000) (q : Fin 64), h (ix2 ⟨r.val, by omega⟩ q) = val_main_v15 (F := Ideal) x0 x1 x2 x7 x8 (ix2 r q)) :
    agg2 (F := Ideal) h x7 x8 = val_main_v25 (F := Ideal) x0 x1 x2 x7 x8 := by
  unfold agg2
  rw [gather2_eq x0 x1 x2 x7 x8 hsrc h hh]
  rfl

/-- Row `r < 50000` of the second linear layer over the padded sums is the reference's output row. -/
theorem layer2_row (r : Fin 50000) (q : Fin 64) :
    linAt (padRows (F := Ideal) (val_main_v25 (F := Ideal) x0 x1 x2 x7 x8)) (wT (F := Ideal) x3) x4 ⟨r.val, by omega⟩ q
      = val_main_v30 (F := Ideal) x0 x1 x2 x3 x4 x7 x8 (ix2 r q) := by
  rw [linAt_padRows, val_main_v30_apply, val_main_v27_apply, val_main_v29_apply, val_main_v28_apply]
  generalize val_main_v25 (F := Ideal) x0 x1 x2 x7 x8 = a
  show _ = _ + _
  congr 1
  · refine Finset.sum_congr rfl fun k _ => ?_
    rw [val_main_v26_apply]
    have el : lidx_main_v27 (ix2 r q) k = ix2 r k := Shape.idx_ext₂ rfl rfl
    have er : idx_main_v26 (ridx_main_v27 (ix2 r q) k) = ix2 q k := Shape.idx_ext₂ rfl rfl
    rw [el, er]
  · exact congrArg x4 (funext fun a => match a with | ⟨0, _⟩ => rfl)

/-- The last contraction's left operand index on its free axis 0: the result's row. -/
private theorem lhs_tail_0 (i : Cert.KernelIdeal.S1x64.Idx) (q : Cert.KernelIdeal.dot_S1x50000_S50000x64_S1x64_1_0_0_1_n_n.contr.Idx) :
    (Cert.KernelIdeal.dot_S1x50000_S50000x64_S1x64_1_0_0_1_n_n.lhsIdx i q 0).val = (i 0).val := by
  unfold DotDims.lhsIdx
  rw [dif_neg (show ¬(0 : Fin Cert.KernelIdeal.S1x50000.rank) ∈ Cert.KernelIdeal.dot_S1x50000_S50000x64_S1x64_1_0_0_1_n_n.lhsBatch by decide), dif_pos (show (0 : Fin Cert.KernelIdeal.S1x50000.rank) ∈ Cert.KernelIdeal.dot_S1x50000_S50000x64_S1x64_1_0_0_1_n_n.lhsNonContracting by decide)]
  rfl

/-- The last contraction's left operand index on its contracted axis 1: the contraction index. -/
private theorem lhs_tail_1 (i : Cert.KernelIdeal.S1x64.Idx) (q : Cert.KernelIdeal.dot_S1x50000_S50000x64_S1x64_1_0_0_1_n_n.contr.Idx) :
    (Cert.KernelIdeal.dot_S1x50000_S50000x64_S1x64_1_0_0_1_n_n.lhsIdx i q 1).val = (q ⟨0, by decide⟩).val :=
  Cert.KernelIdeal.dot_S1x50000_S50000x64_S1x64_1_0_0_1_n_n.lhsIdx_val_of_single rfl i q

/-- The last contraction's right operand index on its contracted axis 0: the contraction index. -/
private theorem rhs_tail_0 (i : Cert.KernelIdeal.S1x64.Idx) (q : Cert.KernelIdeal.dot_S1x50000_S50000x64_S1x64_1_0_0_1_n_n.contr.Idx) :
    (Cert.KernelIdeal.dot_S1x50000_S50000x64_S1x64_1_0_0_1_n_n.rhsIdx i q 0).val = (q ⟨0, by decide⟩).val :=
  Cert.KernelIdeal.dot_S1x50000_S50000x64_S1x64_1_0_0_1_n_n.rhsIdx_val_of_single rfl i q

/-- The last contraction's right operand index on its free axis 1: the result's column. -/
private theorem rhs_tail_1 (i : Cert.KernelIdeal.S1x64.Idx) (q : Cert.KernelIdeal.dot_S1x50000_S50000x64_S1x64_1_0_0_1_n_n.contr.Idx) :
    (Cert.KernelIdeal.dot_S1x50000_S50000x64_S1x64_1_0_0_1_n_n.rhsIdx i q 1).val = (i 1).val := by
  unfold DotDims.rhsIdx
  rw [dif_neg (show ¬(1 : Fin Cert.KernelIdeal.S50000x64.rank) ∈ Cert.KernelIdeal.dot_S1x50000_S50000x64_S1x64_1_0_0_1_n_n.rhsBatch by decide), dif_pos (show (1 : Fin Cert.KernelIdeal.S50000x64.rank) ∈ Cert.KernelIdeal.dot_S1x50000_S50000x64_S1x64_1_0_0_1_n_n.rhsNonContracting by decide)]
  rfl

/-- The last contraction at (z, c): the sum over the 50000 nodes of the weight row against column c. -/
private theorem dot_tail_apply (w : Vec Ideal Cert.KernelIdeal.S1x50000 .f32) (y : Vec Ideal Cert.KernelIdeal.S50000x64 .f32)
    (z : Fin 1) (c : Fin 64) :
    Host.dotGeneral (F := Ideal) (φ₁ := .f32) (φ₂ := .f32) Cert.KernelIdeal.dot_S1x50000_S50000x64_S1x64_1_0_0_1_n_n none w y (ix2 z c) = ∑ k : Fin 50000, w (ix2 z k) * y (ix2 k c) := by
  simp only [Host.dotGeneral]
  rw [Ideal.dotGeneral_apply, ← Equiv.sum_comp (ValueIdx.contrEquiv1 Cert.KernelIdeal.dot_S1x50000_S50000x64_S1x64_1_0_0_1_n_n 50000 rfl rfl).symm]
  refine Finset.sum_congr rfl fun k _ => ?_
  have hk := ValueIdx.contrEquiv1_symm_val Cert.KernelIdeal.dot_S1x50000_S50000x64_S1x64_1_0_0_1_n_n 50000 rfl rfl k
  have el : Cert.KernelIdeal.dot_S1x50000_S50000x64_S1x64_1_0_0_1_n_n.lhsIdx (ix2 z c) ((ValueIdx.contrEquiv1 Cert.KernelIdeal.dot_S1x50000_S50000x64_S1x64_1_0_0_1_n_n 50000 rfl rfl).symm k) = ix2 z k := funext fun a => Fin.ext (by
    match a with
    | ⟨0, _⟩ => exact lhs_tail_0 _ _
    | ⟨1, _⟩ => exact (lhs_tail_1 _ _).trans hk)
  have er : Cert.KernelIdeal.dot_S1x50000_S50000x64_S1x64_1_0_0_1_n_n.rhsIdx (ix2 z c) ((ValueIdx.contrEquiv1 Cert.KernelIdeal.dot_S1x50000_S50000x64_S1x64_1_0_0_1_n_n 50000 rfl rfl).symm k) = ix2 k c := funext fun a => Fin.ext (by
    match a with
    | ⟨0, _⟩ => exact (rhs_tail_0 _ _).trans hk
    | ⟨1, _⟩ => exact rhs_tail_1 _ _)
  rw [el, er]

/-- The kernel's contraction of the weight row against the sliced table, transposed to a column, is the reference's
    contraction of the transposed output against the weight column: the same sum with each product commuted. -/
private theorem tail_dot_at (h : Vec Ideal Cert.KernelIdeal.S50048x64 .f32)
    (hh : ∀ (r : Fin 50000) (q : Fin 64), h (ix2 ⟨r.val, by omega⟩ q) = val_main_v30 (F := Ideal) x0 x1 x2 x3 x4 x7 x8 (ix2 r q))
    (c : Fin 64) (z : Fin 1) :
    transpose Cert.KernelIdeal.S64x1 [1, 0]
        (Host.dotGeneral (F := Ideal) (φ₁ := .f32) (φ₂ := .f32) Cert.KernelIdeal.dot_S1x50000_S50000x64_S1x64_1_0_0_1_n_n none x5
          (extractStridedSlice Cert.KernelIdeal.S50000x64 ![0, 0] h Cert.KernelIdeal.Facts₀.slices_S50048x64_S50000x64_0_0))
        Cert.KernelIdeal.Facts₀.transposes_S1x64_S64x1_1_0 (ix2 c z)
      = val_main_v33 (F := Ideal) x0 x1 x2 x3 x4 x5 x7 x8 (ix2 c z) := by
  refine (transpose_apply [1, 0] _ _ (ix2 c z) (ix2 z c) (fun b => match b with
    | ⟨0, _⟩ => rfl
    | ⟨1, _⟩ => rfl)).trans ?_
  rw [dot_tail_apply, val_main_v33_apply]
  refine Finset.sum_congr rfl fun k _ => ?_
  rw [val_main_v31_apply, val_main_v32_apply, slice2_axis0_apply 0 h _ k c ⟨k.val, by omega⟩ (Nat.zero_add _).symm, hh k c]
  have e1 : idx_main_v31 (lidx_main_v33 (ix2 c z) k) = ix2 k c := Shape.idx_ext₂ rfl rfl
  have e2 : idx_main_v32 (ridx_main_v33 (ix2 c z) k) = ix2 z k := Shape.idx_ext₂ rfl rfl
  rw [e1, e2]
  exact mul_comm _ _

/-- The last stretch over a table that agrees with the reference's output rows is the reference's result. -/
theorem tail_eq (h : Vec Ideal Cert.KernelIdeal.S50048x64 .f32)
    (hh : ∀ (r : Fin 50000) (q : Fin 64), h (ix2 ⟨r.val, by omega⟩ q) = val_main_v30 (F := Ideal) x0 x1 x2 x3 x4 x7 x8 (ix2 r q)) :
    tail (F := Ideal) h x5 x6 = val_main_v42 (F := Ideal) x0 x1 x2 x3 x4 x5 x6 x7 x8 := by
  have hdot : transpose Cert.KernelIdeal.S64x1 [1, 0]
        (Host.dotGeneral (F := Ideal) (φ₁ := .f32) (φ₂ := .f32) Cert.KernelIdeal.dot_S1x50000_S50000x64_S1x64_1_0_0_1_n_n none x5
          (extractStridedSlice Cert.KernelIdeal.S50000x64 ![0, 0] h Cert.KernelIdeal.Facts₀.slices_S50048x64_S50000x64_0_0))
        Cert.KernelIdeal.Facts₀.transposes_S1x64_S64x1_1_0
      = val_main_v33 (F := Ideal) x0 x1 x2 x3 x4 x5 x7 x8 := by
    funext j
    rw [eq_ix2 j]
    exact tail_dot_at x0 x1 x2 x3 x4 x5 x7 x8 h hh (j 0) (j 1)
  unfold tail
  rw [hdot]
  rfl

end Cert.Gcn

end
-- ==== Proof.KernelValue.lean ====
/-
  The kernel program's result is the reference's, as one function of the launch memory.

  Region 0 is entered with the padded neighbour sums of the features, the transposed first weights and the first bias,
  so its output's rows below 50000 are the reference's hidden rows; with every edge source a row of that table the
  second neighbour sums are the reference's; region 1 is entered with their padding, the transposed second weights
  and the second bias, so its output's rows below 50000 are the reference's second layer; the last stretch contracts
  those rows away exactly as the reference does.
-/
import proofs.«427391_j62285615726745_2_alg».proof.Defs
import proofs.«427391_j62285615726745_2_alg».proof.Proof.KernelHost
import proofs.«427391_j62285615726745_2_alg».proof.Proof.RegionValue
import proofs.«427391_j62285615726745_2_alg».proof.Proof.SrcRange
import proofs.«427391_j62285615726745_2_alg».proof.Proof.Bridge

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Cert.ReferenceIdeal.Read

variable (m : (ℓ : Loc nD τ sig) → Buf (Elt Ideal) ℓ) (ρ : Dev nD → PrngReg)

/-- Where the precondition holds, the result buffer's last contents are the reference's result term of the argument
    arrays at launch. -/
theorem kernel_value (hpre : Cert.Pre_KernelIdeal m) (c : Dev nD) :
    W9 m ρ c (Proc.devRef .tc main_v39)
      = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hsrc : ∀ e : Fin 800000, 0 ≤ ((m ((c : Thread nD τ).loc main_arg7)) (ix1 e)).toInt ∧ ((m ((c : Thread nD τ).loc main_arg7)) (ix1 e)).toInt < 50000 :=
    fun e => src_in_range _ _ _ _ _ _ _ _ _ (hpre c) e
  -- layer 1: the first region's rows below 50000 are the reference's hidden rows
  have h1 : ∀ (r : Fin 50000) (q : Fin 64),
      ((dat0 (F := Ideal) (V3 m ρ) c).arrAt 3 cfg0.N : Vec Ideal S50048x64 .f32) (ix2 ⟨r.val, by omega⟩ q)
        = val_main_v15 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (ix2 r q) := by
    intro r q
    rw [region0_value (V3 m ρ) c ⟨r.val, by omega⟩ q, entry0_x, entry0_w, entry0_b, agg1_eq]
    exact layer1_row _ _ _ _ _ r q
  -- layer 2: the second region's rows below 50000 are the reference's second-layer rows
  have h2 : ∀ (r : Fin 50000) (q : Fin 64),
      ((dat1 (F := Ideal) (V7 m ρ) c).arrAt 3 cfg1.N : Vec Ideal S50048x64 .f32) (ix2 ⟨r.val, by omega⟩ q)
        = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (ix2 r q) := by
    intro r q
    rw [region1_value (V7 m ρ) c ⟨r.val, by omega⟩ q, entry1_x, entry1_w, entry1_b,
      agg2_eq (m ((c : Thread nD τ).loc main_arg0)) (m ((c : Thread nD τ).loc main_arg1)) (m ((c : Thread nD τ).loc main_arg2)) (m ((c : Thread nD τ).loc main_arg7)) (m ((c : Thread nD τ).loc main_arg8)) hsrc _ h1]
    exact layer2_row _ _ _ _ _ _ _ r q
  rw [result_eq]
  exact tail_eq _ _ _ _ _ _ _ _ _ _ h2

end Cert.Gcn

end
-- ==== Proof.lean ====
/-
  Two graph-convolution layers and a logistic read-out: the Pallas program against its jnp reference, over the
  extended reals.

  Both programs sum, for every node, the feature rows of its in-neighbours (a row gather at the edges' sources and a
  row scatter-add at their destinations), apply a linear layer and a rectifier, do the same once more without the
  rectifier, contract the node axis against one weight row and apply the logistic function.  The kernel program runs
  each linear layer as a region over 17 blocks of 2944 rows of the sums padded to 50048 rows, on bf16-narrowed
  weights; at the extended reals the narrowing is the identity, the padded rows are never read back below row 50000,
  and a block's matrix product into zeros is the reference's contraction, so each region's rows below 50000 are the
  reference's.  The one place the programs can differ is the second gather: the kernel reads a 50048-row table, the
  reference a 50000-row one, and an edge source outside `[0, 50000)` is wrapped or clamped differently by the two.
  The precondition therefore asks, beside finite floats, that every edge source is a row of the reference's table;
  then neither gather wraps or clamps, both read the same row of tables that agree there, and the rest is the same
  function of equal arguments — up to the order of the two factors inside the last contraction's sum.  No finiteness
  of the inputs is used.

  The three frames: the two kernel programs' are the generated frame certificates; the reference's is its generated
  run with the result forgotten.  The ideal pass rewrote nothing, so the idealization conjunct is trivial.
-/
import proofs.«427391_j62285615726745_2_alg».proof.Defs
import proofs.«427391_j62285615726745_2_alg».proof.Proof.Gen.Kernel
import proofs.«427391_j62285615726745_2_alg».proof.Proof.Gen.Kernel.Frame
import proofs.«427391_j62285615726745_2_alg».proof.Proof.Gen.KernelIdeal
import proofs.«427391_j62285615726745_2_alg».proof.Proof.Gen.KernelIdeal.Frame
import proofs.«427391_j62285615726745_2_alg».proof.Proof.Gen.ReferenceIdeal
import proofs.«427391_j62285615726745_2_alg».proof.Proof.Gen.ReferenceIdeal.Run
import proofs.«427391_j62285615726745_2_alg».proof.Proof.Gen.ReferenceIdeal.Read
import proofs.«427391_j62285615726745_2_alg».proof.Proof.Gen.Pre_finite_inputs
import proofs.«427391_j62285615726745_2_alg».proof.Proof.KernelRun
import proofs.«427391_j62285615726745_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the reference's result term of the (agreeing) argument arrays. -/
theorem algebraic : Cert.algebraic_KernelIdeal_ReferenceIdeal := by
  intro m ρ m' ρ' hpre hagree
  refine ⟨fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Gcn.kernel_value m ρ hpre c), (h c).2⟩) (Cert.Gcn.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [e0, e1, e2, e3, e4, e5, e6, e7, e8]
    exact Cert.ReferenceIdeal.Read.val_main_v42_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
